-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x4096 : Shape := ⟨2, ![16384, 4096]⟩
abbrev S16384 : Shape := ⟨1, ![16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x4096 .f32) (main_arg1 : FVec F S16384x4096 .f32) (main_arg2 : FVec F S16384 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x4096 : Shape := ⟨2, ![4096, 4096]⟩
abbrev S16384x4096 : Shape := ⟨2, ![16384, 4096]⟩
abbrev S16384 : Shape := ⟨1, ![16384]⟩
abbrev S1x16384 : Shape := ⟨2, ![1, 16384]⟩
abbrev S4096x16384 : Shape := ⟨2, ![4096, 16384]⟩
abbrev S1024x1024 : Shape := ⟨2, ![1024, 1024]⟩
abbrev S1x1024 : Shape := ⟨2, ![1, 1024]⟩
abbrev S1024x32 : Shape := ⟨2, ![1024, 32]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S1x16384, .f32⟩
  | .hbm, ⟨4, _⟩ => ⟨S4096x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1024_S1024x32_0_0 : ∀ a, (![0, 0] : Fin 2 → Nat) a + S1024x32.size a ≤ S1024x1024.size a
  h_S1024x32 : 0 < S1024x32.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x32_S1024x32_S1024x1024_1_1_0_0_n_n_wf : DotDims.WF S1024x32 S1024x32 S1024x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .f32 = 32 ∨ (Rect.block (s := S16384x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x16384.size a
  hwx0_3 : ∀ i : grid0.Coords, EltTy.bits .f32 = 32 ∨ (Rect.block (s := S4096x16384) S1024x1024.size (cc0_transform_3 i) (hinb0_3 i)).WholeWords (EltTy.packing .f32)

variable [Facts₀]

def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16384x4096 : Shape := ⟨2, ![16384, 4096]⟩
abbrev S16384 : Shape := ⟨1, ![16384]⟩
abbrev S4096x32 : Shape := ⟨2, ![4096, 32]⟩
abbrev S16384x32 : Shape := ⟨2, ![16384, 32]⟩
abbrev S4096x16384 : Shape := ⟨2, ![4096, 16384]⟩
abbrev S_ : Shape := ⟨0, ![]⟩
abbrev S4096x4064 : Shape := ⟨2, ![4096, 4064]⟩
abbrev S16384x4064 : Shape := ⟨2, ![16384, 4064]⟩
abbrev S1x16384 : Shape := ⟨2, ![1, 16384]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S4096x32, .f32⟩
  | .hbm, ⟨4, _⟩ => ⟨S16384x32, .f32⟩
  | .hbm, ⟨5, _⟩ => ⟨S4096x16384, .f32⟩
  | .hbm, ⟨6, _⟩ => ⟨S4096x32, .f32⟩
  | .hbm, ⟨7, _⟩ => ⟨S16384x32, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S_, .f32⟩
  | .hbm, ⟨27, _⟩ => ⟨S4096x16384, .f32⟩
  | .hbm, ⟨28, _⟩ => ⟨S4096x16384, .f32⟩
  | .hbm, ⟨29, _⟩ => ⟨S_, .f32⟩
  | .hbm, ⟨30, _⟩ => ⟨S4096x16384, .f32⟩
  | .hbm, ⟨31, _⟩ => ⟨S4096x16384, .f32⟩
  | .hbm, ⟨32, _⟩ => ⟨S4096x16384, .f32⟩
  | .hbm, ⟨33, _⟩ => ⟨S4096x16384, .f32⟩
  | .hbm, ⟨34, _⟩ => ⟨S_, .f32⟩
  | .hbm, ⟨35, _⟩ => ⟨S4096x16384, .f32⟩
  | .hbm, ⟨36, _⟩ => ⟨S4096x16384, .i1⟩
  | .hbm, ⟨37, _⟩ => ⟨S4096x4064, .f32⟩
  | .hbm, ⟨38, _⟩ => ⟨S16384x4064, .f32⟩
  | .hbm, ⟨39, _⟩ => ⟨S4096x16384, .f32⟩
  | .hbm, ⟨40, _⟩ => ⟨S4096x16384, .f32⟩
  | .hbm, ⟨41, _⟩ => ⟨S1x16384, .f32⟩
  | .hbm, ⟨42, _⟩ => ⟨S4096x16384, .f32⟩
  | .hbm, ⟨43, _⟩ => ⟨S4096x16384, .f32⟩
  | .hbm, ⟨44, _⟩ => ⟨S_, .f32⟩
  | .hbm, ⟨45, _⟩ => ⟨S4096x16384, .f32⟩
  | .hbm, ⟨46, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_call0_v0 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S4096x4096_S4096x32_0_0 : S4096x4096.Slices ![0, 0] S4096x32
  slices_S16384x4096_S16384x32_0_0 : S16384x4096.Slices ![0, 0] S16384x32
  bcast_S_S4096x16384 : S_.BroadcastsInDim S4096x16384 (![] : Fin 0 → Fin S4096x16384.rank)
  slices_S4096x4096_S4096x4064_0_32 : S4096x4096.Slices ![0, 32] S4096x4064
  slices_S16384x4096_S16384x4064_0_32 : S16384x4096.Slices ![0, 32] S16384x4064
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  dot_S4096x32_S16384x32_S4096x16384_1_1_0_0_n_n_wf : DotDims.WF S4096x32 S16384x32 S4096x16384 [1] [1] [0] [0] [] []
  dot_S4096x4064_S16384x4064_S4096x16384_1_1_0_0_n_n_wf : DotDims.WF S4096x4064 S16384x4064 S4096x16384 [1] [1] [0] [0] [] []

variable [Facts₀]

def dot_S4096x32_S16384x32_S4096x16384_1_1_0_0_n_n : DotDims S4096x32 S16384x32 S4096x16384 where
  lhsContracting := [1]
  rhsContracting := [1]
  lhsNonContracting := [0]
  rhsNonContracting := [0]
  lhsBatch := []
  rhsBatch := []
  wf := dot_S4096x32_S16384x32_S4096x16384_1_1_0_0_n_n_wf
def dot_S4096x4064_S16384x4064_S4096x16384_1_1_0_0_n_n : DotDims S4096x4064 S16384x4064 S4096x16384 where
  lhsContracting := [1]
  rhsContracting := [1]
  lhsNonContracting := [0]
  rhsNonContracting := [0]
  lhsBatch := []
  rhsBatch := []
  wf := dot_S4096x4064_S16384x4064_S4096x16384_1_1_0_0_n_n_wf

class Facts : Prop extends Facts₀ where

variable [Facts]
-- ==== Proof.Spec.lean ====
/-
  The function both programs compute, index by index, and the two laws of finite sums that join them.

  For inputs x : [4096, 4096], w : [16384, 4096], b : [16384] and an output index (p, q):
    * prodAt k   = x(p, k) · w(q, k), the k-th product of the contraction of row p of x with row q of w;
    * sqProdAt k = (x(p, k) · x(p, k)) · (w(q, k) · w(q, k)), the same of the squared entries;
    * partialSum n, sqPartialSum n = the sums of the first n of them.
  The early-exit test looks only at the first 32 reduction columns: with s = partialSum 32 and
  s₂ = sqPartialSum 32 it forms the mean s/32, the variance s₂/32 − mean², and compares
  mean / √(max(variance/32, ε)) with a fixed negative bound; where the test passes the output is 0,
  elsewhere it is the whole contraction partialSum 4096 plus the bias b(q). `gate` is that pointwise
  rule on extended reals, written with the same operations, in the same order, as both programs use.

  The contraction is the same extended real however its 4096 products are grouped: a sum over the first
  n + m products is the sum over the first n plus the sum over the next m (`partialSum_add`). The reference
  groups them 32 + 4064, the kernel 1024 + 1024 + 1024 + 1024. Addition of extended reals is commutative
  and associative also at the infinities, so no finiteness of the inputs is needed.
-/
import Idealize.ShloMosaic.PureOps.Ideal
import Idealize.ShloMosaic.PureOps.Ideal.Laws
import Idealize.ShloMosaic.Lib.ValueIdx

noncomputable section

open scoped BigOperators

namespace Cert.EarlyExit

open Idealize.ShloMosaic Idealize.ShloMosaic.ValueIdx

/-- The shapes of the three inputs and of the output. -/
abbrev XS : Shape := ⟨2, ![4096, 4096]⟩
abbrev WS : Shape := ⟨2, ![16384, 4096]⟩
abbrev BS : Shape := ⟨1, ![16384]⟩
abbrev OS : Shape := ⟨2, ![4096, 16384]⟩

/-- The literals of the test, as the extended reals their f32 words denote: 1/32, 1, 0, the floor ε of the
    variance, and the bound of the test. The same words stand in both programs, so none is ever evaluated. -/
abbrev invN : EReal := Ideal.ofBits .f32 0x3D000000#32
abbrev one : EReal := Ideal.ofBits .f32 0x3F800000#32
abbrev zero : EReal := Ideal.ofBits .f32 0x00000000#32
abbrev eps : EReal := Ideal.ofBits .f32 0x2B8CBCCC#32
abbrev bound : EReal := Ideal.ofBits .f32 0xC003709F#32

/-- The mean of the first 32 products, from their sum `s`. -/
def mean (s : EReal) : EReal := s * invN * one + zero

/-- The pointwise rule: from the sum `s` and the sum of squares `s₂` over the first 32 reduction columns, decide
    whether the test statistic is below the bound; if so the output is 0, otherwise it is `y`. -/
def gate (s s₂ y : EReal) : EReal :=
  Scalar.select
    (Ideal.cmp .olt (Ideal.div (mean s) (Ideal.sqrt (max (((s₂ * invN - mean s * mean s) * one) * invN) eps))) bound)
    zero y

/-- The k-th product of the contraction at output index (p, q); 0 past the last reduction column. -/
def prodAt (x : XS.Idx → EReal) (w : WS.Idx → EReal) (p : Fin 4096) (q : Fin 16384) (k : ℕ) : EReal :=
  if h : k < 4096 then x (ix2 p ⟨k, h⟩) * w (ix2 q ⟨k, h⟩) else 0

/-- The k-th product of the squared entries. -/
def sqProdAt (x : XS.Idx → EReal) (w : WS.Idx → EReal) (p : Fin 4096) (q : Fin 16384) (k : ℕ) : EReal :=
  if h : k < 4096 then (x (ix2 p ⟨k, h⟩) * x (ix2 p ⟨k, h⟩)) * (w (ix2 q ⟨k, h⟩) * w (ix2 q ⟨k, h⟩)) else 0

/-- The sum of the first `n` products. -/
def partialSum (x : XS.Idx → EReal) (w : WS.Idx → EReal) (p : Fin 4096) (q : Fin 16384) (n : ℕ) : EReal :=
  ∑ k ∈ Finset.range n, prodAt x w p q k

/-- The sum of the first `n` products of squares. -/
def sqPartialSum (x : XS.Idx → EReal) (w : WS.Idx → EReal) (p : Fin 4096) (q : Fin 16384) (n : ℕ) : EReal :=
  ∑ k ∈ Finset.range n, sqProdAt x w p q k

/-- The output at (p, q). -/
def resultAt (x : XS.Idx → EReal) (w : WS.Idx → EReal) (b : BS.Idx → EReal) (p : Fin 4096) (q : Fin 16384) : EReal :=
  gate (partialSum x w p q 32) (sqPartialSum x w p q 32) (partialSum x w p q 4096 + b (ix1 q))

/-- The whole output array as one function of the three input arrays. -/
def result (x : XS.Idx → EReal) (w : WS.Idx → EReal) (b : BS.Idx → EReal) : OS.Idx → EReal :=
  fun i => resultAt x w b (i 0) (i 1)

/-- Inside the range the k-th product is the product of the two entries. -/
theorem prodAt_of_lt (x : XS.Idx → EReal) (w : WS.Idx → EReal) (p : Fin 4096) (q : Fin 16384) (k : ℕ) (h : k < 4096) :
    prodAt x w p q k = x (ix2 p ⟨k, h⟩) * w (ix2 q ⟨k, h⟩) := by
  unfold prodAt; rw [dif_pos h]

theorem sqProdAt_of_lt (x : XS.Idx → EReal) (w : WS.Idx → EReal) (p : Fin 4096) (q : Fin 16384) (k : ℕ) (h : k < 4096) :
    sqProdAt x w p q k = (x (ix2 p ⟨k, h⟩) * x (ix2 p ⟨k, h⟩)) * (w (ix2 q ⟨k, h⟩) * w (ix2 q ⟨k, h⟩)) := by
  unfold sqProdAt; rw [dif_pos h]

/-- A sum over `Fin n` whose k-th term is `g (s + k)` is the sum of `g` over the `n` naturals from `s` on. -/
theorem sum_fin_eq_sum_range_shift {n : ℕ} (s : ℕ) (f : Fin n → EReal) (g : ℕ → EReal) (h : ∀ k : Fin n, f k = g (s + k.val)) :
    ∑ k, f k = ∑ k ∈ Finset.range n, g (s + k) := by
  rw [← Fin.sum_univ_eq_sum_range (fun k => g (s + k)) n]
  exact Finset.sum_congr rfl fun k _ => h k

/-- The first `n + m` products are the first `n` and then the next `m`. -/
theorem partialSum_add (x : XS.Idx → EReal) (w : WS.Idx → EReal) (p : Fin 4096) (q : Fin 16384) (n m : ℕ) :
    partialSum x w p q (n + m) = partialSum x w p q n + ∑ k ∈ Finset.range m, prodAt x w p q (n + k) :=
  Finset.sum_range_add _ n m

theorem partialSum_zero (x : XS.Idx → EReal) (w : WS.Idx → EReal) (p : Fin 4096) (q : Fin 16384) :
    partialSum x w p q 0 = 0 := Finset.sum_range_zero _

end Cert.EarlyExit

end
-- ==== Proof.Pieces.lean ====
/-
  What one run of the kernel body leaves behind, case by case, as a pure function of what it read.

  The body keeps three [1024, 1024] scratch blocks between grid points: the running full-width product
  (the accumulator), the product over the first 32 reduction columns, and the same of the squared entries.
  * At the first reduction step (case A) it zeroes the accumulator, stores the two 32-column products of
    the leading 32 columns of the x and w blocks, and then adds the step's 1024-column product into the
    accumulator it has just zeroed.
  * At a middle step (case B) it adds the step's product into the accumulator and touches nothing else.
  * At the last step (case C) it does the same and then writes the output block: the gated accumulator
    plus bias, where the gate reads the two 32-column scratch blocks, and the accumulator it reads is
    the one it has just updated.
  Each lemma reads the stores the symbolic run found back as the value they leave: a whole-block store
  leaves its payload, and a load of a block stored earlier in the same run reads that payload.
-/
import proofs.«177124_j48679159333253_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The leading 32 columns of a [1024, 1024] block: what the first step loads of the x and w blocks. -/
abbrev lead32 (x : Vec F S1024x1024 .f32) : Vec F S1024x32 .f32 :=
  View.ld x (Rect.unit ![0, 0] ![1024, 32] inb_S1024x1024_S1024x32_0_0)

/-- Middle step: the accumulator `acc` becomes `acc` plus the product of the two blocks. -/
theorem acc_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x1024 .f32) (x1 : Vec F S1024x1024 .f32) (x2 : Vec F S1x1024 .f32) (xs0 xs1 xs2 : Vec F S1024x1024 .f32) :
    sout0_B_0 c i arg3 harg3 arg4 harg4 arg5 harg5 arg6 harg6 arg7 harg7 arg8 harg8 arg9 harg9 hc0 hc1 x0 x1 x2 xs0 xs1 xs2 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readAt_eq_ld, harg3.read_unread, harg4.read_unread, harg7.read_unread, View.ld_unit_zero (S := S1024x1024) hz]

/-- Last step: the accumulator is updated the same way. -/
theorem acc_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .f32) (x1 : Vec F S1024x1024 .f32) (x2 : Vec F S1x1024 .f32) (xs0 xs1 xs2 : Vec F S1024x1024 .f32) :
    sout0_C_0 c i arg3 harg3 arg4 harg4 arg5 harg5 arg6 harg6 arg7 harg7 arg8 harg8 arg9 harg9 hc0 hc1 x0 x1 x2 xs0 xs1 xs2 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg3.read_unread, harg4.read_unread, harg7.read_unread, View.ld_unit_zero (S := S1024x1024) hz]

/-- Last step: the output block is the gate applied to the two 32-column scratch blocks `xs1`, `xs2`, the UPDATED
    accumulator and the bias row `x2`. -/
theorem out_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .f32) (x1 : Vec F S1024x1024 .f32) (x2 : Vec F S1x1024 .f32) (xs0 xs1 xs2 : Vec F S1024x1024 .f32) :
    out0_C_3 c i arg3 harg3 arg4 harg4 arg5 harg5 arg6 harg6 arg7 harg7 arg8 harg8 arg9 harg9 hc0 hc1 x0 x1 x2 xs0 xs1 xs2 = k0_pay5 xs1 xs2 (k0_pay4 x0 x1 xs0) x2 := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg3.read_unread, harg4.read_unread, harg5.read_unread, harg7.read_unread, harg8.read_unread, harg9.read_unread,
    View.ld_unit_zero (S := S1024x1024) hz, View.ld_unit_zero (S := S1x1024) hz, View.readCov_unit_zero (S := S1024x1024) _ hz]

/-- First step: the accumulator is the zero block plus the product of the two blocks. -/
theorem acc_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x1024 .f32) (x1 : Vec F S1024x1024 .f32) (x2 : Vec F S1x1024 .f32) :
    sout0_A_0 c i arg3 harg3 arg4 harg4 arg5 harg5 arg6 harg6 arg7 harg7 arg8 harg8 arg9 harg9 hc0 hc1 x0 x1 x2 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- First step: the second scratch block is the product of the leading 32 columns of the two blocks. -/
theorem lead_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x1024 .f32) (x1 : Vec F S1024x1024 .f32) (x2 : Vec F S1x1024 .f32) :
    sout0_A_1 c i arg3 harg3 arg4 harg4 arg5 harg5 arg6 harg6 arg7 harg7 arg8 harg8 arg9 harg9 hc0 hc1 x0 x1 x2 = k0_pay2 (lead32 x0) (lead32 x1) := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_unit_zero hz]
  simp only [View.readAt_eq_ld, harg3.read_unread, harg4.read_unread]

/-- First step: the third scratch block is the product of the squared leading 32 columns. -/
theorem leadSq_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x1024 .f32) (x1 : Vec F S1024x1024 .f32) (x2 : Vec F S1x1024 .f32) :
    sout0_A_2 c i arg3 harg3 arg4 harg4 arg5 harg5 arg6 harg6 arg7 harg7 arg8 harg8 arg9 harg9 hc0 hc1 x0 x1 x2 = k0_pay3 (lead32 x0) (lead32 x1) := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_unit_zero hz]
  simp only [View.readAt_eq_ld, harg3.read_unread, harg4.read_unread]

end Cert.KernelIdeal.Pieces

end
-- ==== Proof.Payloads.lean ====
/-
  The kernel body's five stored values, read at one element (a, b) of the [1024, 1024] block, at the ideal
  instance where a float is an extended real and every operation is the exact one.

  * the reset value is 0;
  * a matrix product into a zero accumulator is the plain sum, over the shared axis, of the products of
    row a of the first operand with row b of the second (both operands are contracted on their last
    axis); casting the operands to bfloat16 first changes nothing at this instance;
  * the accumulator update adds that sum to the old accumulator;
  * the output is the pointwise early-exit rule (`Cert.EarlyExit.gate`) of the two 32-column sums and of the
    accumulator plus the bias row's entry b: the body applies, in the same order, the operations `gate` is
    written with, so the two agree by unfolding.
-/
import proofs.«177124_j48679159333253_1_alg».proof.Proof.Gen.KernelIdeal.Skeleton
import proofs.«177124_j48679159333253_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen Cert.EarlyExit

/-! ## The two contractions' operand indices, axis by axis -/

theorem lhs_d32_0 (i : S1024x1024.Idx) (q : dot_S1024x32_S1024x32_S1024x1024_1_1_0_0_n_n.contr.Idx) :
    (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
theorem lhs_d32_1 (i : S1024x1024.Idx) (q : dot_S1024x32_S1024x32_S1024x1024_1_1_0_0_n_n.contr.Idx) :
    (dot_S1024x32_S1024x32_S1024x1024_1_1_0_0_n_n.lhsIdx i q 1).val = (q ⟨0, by decide⟩).val :=
  dot_S1024x32_S1024x32_S1024x1024_1_1_0_0_n_n.lhsIdx_val_of_single rfl i q
theorem rhs_d32_0 (i : S1024x1024.Idx) (q : dot_S1024x32_S1024x32_S1024x1024_1_1_0_0_n_n.contr.Idx) :
    (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl
theorem rhs_d32_1 (i : S1024x1024.Idx) (q : dot_S1024x32_S1024x32_S1024x1024_1_1_0_0_n_n.contr.Idx) :
    (dot_S1024x32_S1024x32_S1024x1024_1_1_0_0_n_n.rhsIdx i q 1).val = (q ⟨0, by decide⟩).val :=
  dot_S1024x32_S1024x32_S1024x1024_1_1_0_0_n_n.rhsIdx_val_of_single rfl i q

/-- The product of a [1024, 32] block with the transpose of another into a zero accumulator, at (a, b): the sum over
    the 32 shared columns of the products of row a of the first with row b of the second. -/
theorem matmul_d32_apply {φ₁ φ₂ : FTy} (l : FVec Ideal S1024x32 φ₁) (r : FVec Ideal S1024x32 φ₂) (a b : Fin 1024) :
    matmul dot_S1024x32_S1024x32_S1024x1024_1_1_0_0_n_n none l r (constant S1024x1024 .f32 0x00000000#32) (ix2 a b)
      = ∑ k : Fin 32, l (ix2 a k) * r (ix2 b k) := by
  simp only [matmul]
  rw [Ideal.matmul_constant_zero_apply, ← Equiv.sum_comp (ValueIdx.contrEquiv1 dot_S1024x32_S1024x32_S1024x1024_1_1_0_0_n_n 32 rfl rfl).symm]
  refine Finset.sum_congr rfl fun k _ => ?_
  have hk := ValueIdx.contrEquiv1_symm_val dot_S1024x32_S1024x32_S1024x1024_1_1_0_0_n_n 32 rfl rfl k
  have el : dot_S1024x32_S1024x32_S1024x1024_1_1_0_0_n_n.lhsIdx (ix2 a b) ((ValueIdx.contrEquiv1 dot_S1024x32_S1024x32_S1024x1024_1_1_0_0_n_n 32 rfl rfl).symm k) = ix2 a k := funext fun d => Fin.ext (by
    match d with
    | ⟨0, _⟩ => exact lhs_d32_0 _ _
    | ⟨1, _⟩ => exact (lhs_d32_1 _ _).trans hk)
  have er : dot_S1024x32_S1024x32_S1024x1024_1_1_0_0_n_n.rhsIdx (ix2 a b) ((ValueIdx.contrEquiv1 dot_S1024x32_S1024x32_S1024x1024_1_1_0_0_n_n 32 rfl rfl).symm k) = ix2 b k := funext fun d => Fin.ext (by
    match d with
    | ⟨0, _⟩ => exact rhs_d32_0 _ _
    | ⟨1, _⟩ => exact (rhs_d32_1 _ _).trans hk)
  rw [el, er]

theorem lhs_d1k_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_d1k_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_d1k_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_d1k_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of a [1024, 1024] block with the transpose of another into a zero accumulator, at (a, b): the sum over
    the 1024 shared columns of the products of row a of the first with row b of the second. -/
theorem matmul_d1k_apply {φ₁ φ₂ : FTy} (l : FVec Ideal S1024x1024 φ₁) (r : FVec Ideal S1024x1024 φ₂) (a b : Fin 1024) :
    matmul dot_S1024x1024_S1024x1024_S1024x1024_1_1_0_0_n_n none l r (constant S1024x1024 .f32 0x00000000#32) (ix2 a b)
      = ∑ k : Fin 1024, l (ix2 a k) * r (ix2 b k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 a b) ((ValueIdx.contrEquiv1 dot_S1024x1024_S1024x1024_S1024x1024_1_1_0_0_n_n 1024 rfl rfl).symm k) = ix2 a k := funext fun d => Fin.ext (by
    match d with
    | ⟨0, _⟩ => exact lhs_d1k_0 _ _
    | ⟨1, _⟩ => exact (lhs_d1k_1 _ _).trans hk)
  have er : dot_S1024x1024_S1024x1024_S1024x1024_1_1_0_0_n_n.rhsIdx (ix2 a b) ((ValueIdx.contrEquiv1 dot_S1024x1024_S1024x1024_S1024x1024_1_1_0_0_n_n 1024 rfl rfl).symm k) = ix2 b k := funext fun d => Fin.ext (by
    match d with
    | ⟨0, _⟩ => exact rhs_d1k_0 _ _
    | ⟨1, _⟩ => exact (rhs_d1k_1 _ _).trans hk)
  rw [el, er]

/-! ## The stored values at an element -/

/-- The reset stores zero. -/
theorem reset_apply (j : S1024x1024.Idx) : k0_pay1 (F := Ideal) j = 0 := by
  unfold k0_pay1
  rw [shapeCast_self]
  exact Ideal.ofBits_zero_f32

/-- The accumulator update: the old value plus the sum over the block's 1024 columns. -/
theorem update_apply (x0 x1 acc : Vec Ideal S1024x1024 .f32) (a b : Fin 1024) :
    k0_pay4 (F := Ideal) x0 x1 acc (ix2 a b) = acc (ix2 a b) + ∑ k : Fin 1024, x0 (ix2 a k) * x1 (ix2 b k) := by
  unfold k0_pay4
  rw [shapeCast_self]
  show acc (ix2 a b) + _ = _
  rw [matmul_d1k_apply]
  rfl

/-- The product over 32 columns. -/
theorem lead_apply (v20 v21 : Vec Ideal S1024x32 .f32) (a b : Fin 1024) :
    k0_pay2 (F := Ideal) v20 v21 (ix2 a b) = ∑ k : Fin 32, v20 (ix2 a k) * v21 (ix2 b k) := by
  unfold k0_pay2
  rw [shapeCast_self]
  exact matmul_d32_apply _ _ a b

/-- The product of the squared entries over 32 columns. -/
theorem leadSq_apply (v20 v21 : Vec Ideal S1024x32 .f32) (a b : Fin 1024) :
    k0_pay3 (F := Ideal) v20 v21 (ix2 a b) = ∑ k : Fin 32, (v20 (ix2 a k) * v20 (ix2 a k)) * (v21 (ix2 b k) * v21 (ix2 b k)) := by
  unfold k0_pay3
  rw [shapeCast_self]
  exact matmul_d32_apply _ _ a b

/-- The output: the early-exit rule of the two 32-column sums and of accumulator plus bias. -/
theorem output_apply (y1 cs acc : Vec Ideal S1024x1024 .f32) (bias : Vec Ideal S1x1024 .f32) (a b : Fin 1024) :
    k0_pay5 (F := Ideal) y1 cs acc bias (ix2 a b)
      = gate (y1 (ix2 a b)) (cs (ix2 a b)) (acc (ix2 a b) + bias (ix2 (0 : Fin 1) b)) := by
  unfold k0_pay5
  rw [shapeCast_self]
  show gate (y1 (ix2 a b)) (cs (ix2 a b)) (acc (ix2 a b) + broadcastTo S1024x1024 bias broadcasts_S1x1024_S1024x1024 (ix2 a b)) = _
  rw [broadcastTo_1b_ab_apply]

end Cert.KernelIdeal.Payloads

end
-- ==== Proof.Blocks.lean ====
/-
  Where a grid point's blocks sit in the arrays.

  The grid is 4 × 16 × 4, the last axis (the reduction step) fastest: point t has row-block t / 64,
  column-block (t / 4) mod 16 and reduction step t mod 4. At point t the pipeline stages
    * the x block: rows 1024·(t/64) + a, reduction columns 1024·(t mod 4) + k;
    * the w block: rows 1024·((t/4) mod 16) + b, the same reduction columns;
    * the bias block: entries 1024·((t/4) mod 16) + b of the bias row;
  and the output block, written back at the last reduction step only, is rows 1024·(t/64) + a and columns
  1024·((t/4) mod 16) + b of the result. The bias row is the bias vector with a leading unit axis.
  The facts about the printed index maps are decided once over the 256 points; everything after is
  arithmetic on a block's coordinate: block index × 1024 + the coordinate inside the block.
-/
import proofs.«177124_j48679159333253_1_alg».proof.Proof.Gen.KernelIdeal.Frame
import proofs.«177124_j48679159333253_1_alg».proof.Proof.Pieces
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The grid has 256 points. -/
theorem lt256 (t : Fin cfg0.N) : t.val < 256 := lt_of_lt_of_eq t.isLt (show cfg0.N = 256 from N_0)

/-- Which block of each array point `t` stages, axis by axis. -/
theorem index_facts : ∀ t : Fin cfg0.N,
    win0_0.index t 0 = t.val / 64 ∧ win0_0.index t 1 = t.val % 4 ∧
    win0_1.index t 0 = t.val / 4 % 16 ∧ win0_1.index t 1 = t.val % 4 ∧
    win0_2.index t 0 = 0 ∧ win0_2.index t 1 = t.val / 4 % 16 ∧
    win0_3.index t 0 = t.val / 64 ∧ win0_3.index t 1 = t.val / 4 % 16 :=
  (by decide +kernel : ∀ t : Fin grid0.N,
    win0_0.index t 0 = t.val / 64 ∧ win0_0.index t 1 = t.val % 4 ∧
    win0_1.index t 0 = t.val / 4 % 16 ∧ win0_1.index t 1 = t.val % 4 ∧
    win0_2.index t 0 = 0 ∧ win0_2.index t 1 = t.val / 4 % 16 ∧
    win0_3.index t 0 = t.val / 64 ∧ win0_3.index t 1 = t.val / 4 % 16)

/-- The result row of coordinate `a` of point `t`'s blocks, the result column of coordinate `b`, and the reduction
    column of coordinate `k`. -/
def rowOf (t : Fin cfg0.N) (a : Fin 1024) : Fin 4096 := ⟨t.val / 64 * 1024 + a.val, by have := lt256 t; have := a.isLt; omega⟩
def colOf (t : Fin cfg0.N) (b : Fin 1024) : Fin 16384 := ⟨t.val / 4 % 16 * 1024 + b.val, by have := lt256 t; have := b.isLt; omega⟩
def redOf (t : Fin cfg0.N) (k : Fin 1024) : Fin 4096 := ⟨t.val % 4 * 1024 + k.val, by have := lt256 t; have := k.isLt; omega⟩

/-- The staged blocks and the arrays, at their literal types. -/
abbrev xblk (c : Dev nD) (t : Fin cfg0.N) : Vec F S1024x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t
abbrev xarr (c : Dev nD) : Vec F S4096x4096 .f32 := V m c main_arg0
abbrev warr (c : Dev nD) : Vec F S16384x4096 .f32 := V m c main_arg1
abbrev brow (c : Dev nD) : Vec F S1x16384 .f32 := V m c main_v0
abbrev bvec (c : Dev nD) : Vec F S16384 .f32 := m ((c : Thread nD τ).loc main_arg2)

theorem xblk_apply (c : Dev nD) (t : Fin cfg0.N) (a k : Fin 1024) :
    xblk m c t (ix2 a k) = xarr m c (ix2 (rowOf t a) (redOf t k)) := by
  show V m c main_arg0 (((cfg0.win 0).blk t).view.emb (ix2 a k)) = V m c main_arg0 _
  refine congrArg _ (funext fun d => Fin.ext ?_)
  match d with
  | ⟨0, _⟩ =>
    show win0_0.index t 0 * 1024 + 1 * a.val = t.val / 64 * 1024 + a.val
    rw [(index_facts t).1]; omega
  | ⟨1, _⟩ =>
    show win0_0.index t 1 * 1024 + 1 * k.val = t.val % 4 * 1024 + k.val
    rw [(index_facts t).2.1]; omega

theorem wblk_apply (c : Dev nD) (t : Fin cfg0.N) (b k : Fin 1024) :
    wblk m c t (ix2 b k) = warr m c (ix2 (colOf t b) (redOf t k)) := by
  show V m c main_arg1 (((cfg0.win 1).blk t).view.emb (ix2 b k)) = V m c main_arg1 _
  refine congrArg _ (funext fun d => Fin.ext ?_)
  match d with
  | ⟨0, _⟩ =>
    show win0_1.index t 0 * 1024 + 1 * b.val = t.val / 4 % 16 * 1024 + b.val
    rw [(index_facts t).2.2.1]; omega
  | ⟨1, _⟩ =>
    show win0_1.index t 1 * 1024 + 1 * k.val = t.val % 4 * 1024 + k.val
    rw [(index_facts t).2.2.2.1]; omega

theorem bblk_apply (c : Dev nD) (t : Fin cfg0.N) (b : Fin 1024) :
    bblk m c t (ix2 (0 : Fin 1) b) = brow m c (ix2 (0 : Fin 1) (colOf t b)) := by
  show V m c main_v0 (((cfg0.win 2).blk t).view.emb (ix2 (0 : Fin 1) b)) = V m c main_v0 _
  refine congrArg _ (funext fun d => Fin.ext ?_)
  match d with
  | ⟨0, _⟩ =>
    show win0_2.index t 0 * 1 + 1 * 0 = 0
    rw [(index_facts t).2.2.2.2.1]
  | ⟨1, _⟩ =>
    show win0_2.index t 1 * 1024 + 1 * b.val = t.val / 4 % 16 * 1024 + b.val
    rw [(index_facts t).2.2.2.2.2.1]; omega

/-- The bias row the region finds is the bias vector under a leading unit axis. -/
theorem brow_eq (c : Dev nD) : (brow m c : S1x16384.Idx → Elt F .f32) = shapeCast S1x16384 (bvec m c) shapeCasts_S16384_S1x16384 := by
  dsimp only [brow, bvec, Gen.V, Gen.hostOps0]; after_results; rfl

theorem brow_apply (c : Dev nD) (q : Fin 16384) : brow m c (ix2 (0 : Fin 1) q) = bvec m c (ix1 q) := by
  rw [brow_eq]; exact shapeCast_a_1a_apply _ _ _ _

/-- The x and w arrays the region finds are the arguments. -/
theorem xarr_eq (c : Dev nD) : xarr m c = m ((c : Thread nD τ).loc main_arg0) := V_main_arg0 m c
theorem warr_eq (c : Dev nD) : warr m c = m ((c : Thread nD τ).loc main_arg1) := V_main_arg1 m c

/-- The leading 32 columns of a block, at an element. -/
theorem lead32_apply (x : Vec F S1024x1024 .f32) (a : Fin 1024) (k : Fin 32) :
    Pieces.lead32 x (ix2 a k) = x (ix2 a ⟨k.val, by have := k.isLt; omega⟩) := by
  show x ((Rect.unit (s := S1024x1024) ![0, 0] ![1024, 32] inb_S1024x1024_S1024x32_0_0).emb (ix2 a k)) = _
  refine congrArg _ (funext fun d => Fin.ext ?_)
  match d with
  | ⟨0, _⟩ => show 0 + 1 * a.val = a.val; omega
  | ⟨1, _⟩ => show 0 + 1 * k.val = k.val; omega

end Cert.KernelIdeal.Blocks

end
-- ==== Proof.Invariant.lean ====
/-
  What the three carried blocks hold after every grid point, and what the last reduction step writes.

  Fix a core and write X, W for the x and w arrays. For the block element (a, b) of point t, let p and q be
  its result row and column. After point t, whose reduction step is r = t mod 4,
    * the accumulator holds the sum of the first 1024·(r + 1) products of the contraction at (p, q):
      the first step starts from the zero it has just stored, every later step adds its 1024 products to
      what the step before left, and the steps of one output block are consecutive points with the same
      (p, q);
    * the other two blocks hold, unchanged since the first step, the sums of the first 32 products and of
      the first 32 products of squares: at the first step the block's reduction columns are 0 … 1023, so
      its leading 32 columns are the contraction's first 32.
  By induction on the point. At the last step (r = 3) the accumulator therefore holds all 4096 products,
  and the block written back is the early-exit rule of the two 32-column sums and of that full sum plus
  the bias entry q: the specification's value at (p, q).
-/
import proofs.«177124_j48679159333253_1_alg».proof.Proof.Gen.KernelIdeal.Frame
import proofs.«177124_j48679159333253_1_alg».proof.Proof.Spec
import proofs.«177124_j48679159333253_1_alg».proof.Proof.Pieces
import proofs.«177124_j48679159333253_1_alg».proof.Proof.Payloads
import proofs.«177124_j48679159333253_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Invariant

open Cert.KernelIdeal Cert.KernelIdeal.Gen Cert.EarlyExit
open Cert.KernelIdeal.Blocks (rowOf colOf redOf xblk wblk bblk xarr warr brow bvec lt256)

variable (m : (ℓ : Loc nD τ sig) → Buf (Elt Ideal) ℓ)

/-! ## One step's products, and the leading 32 -/

/-- The 1024 products of point `t`'s blocks at (a, b) are products 1024·(t mod 4) … of the contraction at the
    element's result row and column. -/
theorem step_sum (c : Dev nD) (t : Fin cfg0.N) (a b : Fin 1024) :
    ∑ k : Fin 1024, xblk m c t (ix2 a k) * wblk m c t (ix2 b k)
      = ∑ k ∈ Finset.range 1024, prodAt (xarr m c) (warr m c) (rowOf t a) (colOf t b) (t.val % 4 * 1024 + k) := by
  refine sum_fin_eq_sum_range_shift (t.val % 4 * 1024) _ _ fun k => ?_
  rw [Blocks.xblk_apply, Blocks.wblk_apply, prodAt_of_lt _ _ _ _ _ (by have := lt256 t; have := k.isLt; omega)]
  rfl

/-- Adding a step's products to the first 1024·r gives the first 1024·(r + 1). -/
theorem acc_step (c : Dev nD) (t : Fin cfg0.N) (a b : Fin 1024) (s : EReal)
    (hs : s = partialSum (xarr m c) (warr m c) (rowOf t a) (colOf t b) (t.val % 4 * 1024)) :
    s + ∑ k : Fin 1024, xblk m c t (ix2 a k) * wblk m c t (ix2 b k)
      = partialSum (xarr m c) (warr m c) (rowOf t a) (colOf t b) ((t.val % 4 + 1) * 1024) := by
  rw [hs, step_sum, show (t.val % 4 + 1) * 1024 = t.val % 4 * 1024 + 1024 by ring, partialSum_add]

/-- At a first step the leading 32 columns of the blocks are the contraction's first 32 columns. -/
theorem lead_sum (c : Dev nD) (t : Fin cfg0.N) (h0 : t.val % 4 = 0) (a b : Fin 1024) :
    ∑ k : Fin 32, Pieces.lead32 (xblk m c t) (ix2 a k) * Pieces.lead32 (wblk m c t) (ix2 b k)
      = partialSum (xarr m c) (warr m c) (rowOf t a) (colOf t b) 32 := by
  unfold partialSum
  rw [← Fin.sum_univ_eq_sum_range (fun k => prodAt (xarr m c) (warr m c) (rowOf t a) (colOf t b) k) 32]
  refine Finset.sum_congr rfl fun k _ => ?_
  have e : redOf t ⟨k.val, by have := k.isLt; omega⟩ = ⟨k.val, by have := k.isLt; omega⟩ :=
    Fin.ext (by show t.val % 4 * 1024 + k.val = k.val; omega)
  rw [Blocks.lead32_apply, Blocks.lead32_apply, Blocks.xblk_apply, Blocks.wblk_apply, e,
    prodAt_of_lt _ _ _ _ _ (by have := k.isLt; omega)]

theorem leadSq_sum (c : Dev nD) (t : Fin cfg0.N) (h0 : t.val % 4 = 0) (a b : Fin 1024) :
    ∑ k : Fin 32, (Pieces.lead32 (xblk m c t) (ix2 a k) * Pieces.lead32 (xblk m c t) (ix2 a k))
        * (Pieces.lead32 (wblk m c t) (ix2 b k) * Pieces.lead32 (wblk m c t) (ix2 b k))
      = sqPartialSum (xarr m c) (warr m c) (rowOf t a) (colOf t b) 32 := by
  unfold sqPartialSum
  rw [← Fin.sum_univ_eq_sum_range (fun k => sqProdAt (xarr m c) (warr m c) (rowOf t a) (colOf t b) k) 32]
  refine Finset.sum_congr rfl fun k _ => ?_
  have e : redOf t ⟨k.val, by have := k.isLt; omega⟩ = ⟨k.val, by have := k.isLt; omega⟩ :=
    Fin.ext (by show t.val % 4 * 1024 + k.val = k.val; omega)
  rw [Blocks.lead32_apply, Blocks.lead32_apply, Blocks.xblk_apply, Blocks.wblk_apply, e,
    sqProdAt_of_lt _ _ _ _ _ (by have := k.isLt; omega)]

/-! ## Consecutive steps of one output block share its rows and columns -/

theorem rowOf_prev (t : Fin cfg0.N) (h0 : ¬t.val % 4 = 0) (hp : t.val - 1 < cfg0.N) (a : Fin 1024) :
    rowOf ⟨t.val - 1, hp⟩ a = rowOf t a :=
  Fin.ext (by show (t.val - 1) / 64 * 1024 + a.val = t.val / 64 * 1024 + a.val; omega)

theorem colOf_prev (t : Fin cfg0.N) (h0 : ¬t.val % 4 = 0) (hp : t.val - 1 < cfg0.N) (b : Fin 1024) :
    colOf ⟨t.val - 1, hp⟩ b = colOf t b :=
  Fin.ext (by show (t.val - 1) / 4 % 16 * 1024 + b.val = t.val / 4 % 16 * 1024 + b.val; omega)

/-! ## The invariant -/

/-- What the three carried blocks hold after point `n`. -/
def Holds (c : Dev nD) (n : ℕ) (h : n < cfg0.N) : Prop :=
  (∀ a b : Fin 1024, (outsAt0 m c n h).2.1 (ix2 a b)
      = partialSum (xarr m c) (warr m c) (rowOf ⟨n, h⟩ a) (colOf ⟨n, h⟩ b) ((n % 4 + 1) * 1024))
  ∧ (∀ a b : Fin 1024, (outsAt0 m c n h).2.2.1 (ix2 a b)
      = partialSum (xarr m c) (warr m c) (rowOf ⟨n, h⟩ a) (colOf ⟨n, h⟩ b) 32)
  ∧ (∀ a b : Fin 1024, (outsAt0 m c n h).2.2.2 (ix2 a b)
      = sqPartialSum (xarr m c) (warr m c) (rowOf ⟨n, h⟩ a) (colOf ⟨n, h⟩ b) 32)

/-- A first step establishes it from nothing. -/
theorem holds_first (c : Dev nD) (t : Fin cfg0.N) (h0 : t.val % 4 = 0) (h1 : ¬t.val % 4 = 3) : Holds m c t.val t.isLt := by
  unfold Holds
  rw [outsAt0_A m c t h0 h1]
  dsimp only
  refine ⟨fun a b => ?_, fun a b => ?_, fun a b => ?_⟩
  · refine (congrFun (Pieces.acc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (bblk m c t)) (ix2 a b)).trans ?_
    rw [Payloads.update_apply]
    refine acc_step m c t a b _ ?_
    rw [Payloads.reset_apply, h0, Nat.zero_mul, partialSum_zero]
  · refine (congrFun (Pieces.lead_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (bblk m c t)) (ix2 a b)).trans ?_
    rw [Payloads.lead_apply]
    exact lead_sum m c t h0 a b
  · refine (congrFun (Pieces.leadSq_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (bblk m c t)) (ix2 a b)).trans ?_
    rw [Payloads.leadSq_apply]
    exact leadSq_sum m c t h0 a b

/-- A later step carries it on from the step before. -/
theorem holds_next (c : Dev nD) (t : Fin cfg0.N) (h0 : ¬t.val % 4 = 0)
    (ih : Holds m c (t.val - 1) (Nat.lt_of_le_of_lt (Nat.sub_le _ _) t.isLt)) : Holds m c t.val t.isLt := by
  obtain ⟨ih0, ih1, ih2⟩ := ih
  have hp : t.val - 1 < cfg0.N := Nat.lt_of_le_of_lt (Nat.sub_le _ _) t.isLt
  have e0 : ∀ a b : Fin 1024, (outsAt0 m c (t.val - 1) (Nat.lt_of_le_of_lt (Nat.sub_le _ _) t.isLt)).2.1 (ix2 a b)
      = partialSum (xarr m c) (warr m c) (rowOf t a) (colOf t b) (t.val % 4 * 1024) := fun a b => by
    rw [ih0 a b, rowOf_prev t h0 hp, colOf_prev t h0 hp, show ((t.val - 1) % 4 + 1) * 1024 = t.val % 4 * 1024 by omega]
  have e1 : ∀ a b : Fin 1024, (outsAt0 m c (t.val - 1) (Nat.lt_of_le_of_lt (Nat.sub_le _ _) t.isLt)).2.2.1 (ix2 a b)
      = partialSum (xarr m c) (warr m c) (rowOf t a) (colOf t b) 32 := fun a b => by
    rw [ih1 a b, rowOf_prev t h0 hp, colOf_prev t h0 hp]
  have e2 : ∀ a b : Fin 1024, (outsAt0 m c (t.val - 1) (Nat.lt_of_le_of_lt (Nat.sub_le _ _) t.isLt)).2.2.2 (ix2 a b)
      = sqPartialSum (xarr m c) (warr m c) (rowOf t a) (colOf t b) 32 := fun a b => by
    rw [ih2 a b, rowOf_prev t h0 hp, colOf_prev t h0 hp]
  unfold Holds
  by_cases h1 : t.val % 4 = 3
  · rw [outsAt0_C m c t h0 h1]
    dsimp only
    refine ⟨fun a b => ?_, fun a b => e1 a b, fun a b => e2 a b⟩
    refine (congrFun (Pieces.acc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 a b)).trans ?_
    rw [Payloads.update_apply]
    exact acc_step m c t a b _ (e0 a b)
  · rw [outsAt0_B m c t h0 h1]
    dsimp only
    refine ⟨fun a b => ?_, fun a b => e1 a b, fun a b => e2 a b⟩
    refine (congrFun (Pieces.acc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 a b)).trans ?_
    rw [Payloads.update_apply]
    exact acc_step m c t a b _ (e0 a b)

/-- The invariant holds after every point. -/
theorem holds (c : Dev nD) : ∀ (n : ℕ) (h : n < cfg0.N), Holds m c n h := by
  intro n
  induction n with
  | zero => intro h; exact holds_first m c ⟨0, h⟩ rfl (by show ¬0 % 4 = 3; decide)
  | succ n ih =>
    intro h
    by_cases h0 : (n + 1) % 4 = 0
    · exact holds_first m c ⟨n + 1, h⟩ h0 (by show ¬(n + 1) % 4 = 3; omega)
    · exact holds_next m c ⟨n + 1, h⟩ h0 (ih (Nat.lt_of_succ_lt h))

/-! ## What the last step writes -/

/-- At a last reduction step the output block holds, at (a, b), the specification's value at the element's result
    row and column. -/
theorem out_last (c : Dev nD) (t : Fin cfg0.N) (h3 : t.val % 4 = 3) (a b : Fin 1024) :
    (outsAt0 m c t.val t.isLt).1 (ix2 a b)
      = resultAt (xarr m c) (warr m c) (bvec m c) (rowOf t a) (colOf t b) := by
  have h0 : ¬t.val % 4 = 0 := by omega
  have hp : t.val - 1 < cfg0.N := Nat.lt_of_le_of_lt (Nat.sub_le _ _) t.isLt
  obtain ⟨ih0, ih1, ih2⟩ := holds m c (t.val - 1) hp
  rw [outsAt0_C m c t h0 h3]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h3) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 a b)).trans ?_
  rw [Payloads.output_apply, Payloads.update_apply, ih1 a b, ih2 a b, rowOf_prev t h0 hp, colOf_prev t h0 hp,
    acc_step m c t a b _ (by rw [ih0 a b, rowOf_prev t h0 hp, colOf_prev t h0 hp, show ((t.val - 1) % 4 + 1) * 1024 = t.val % 4 * 1024 by omega]),
    h3, Blocks.bblk_apply, Blocks.brow_apply]
  rfl

end Cert.KernelIdeal.Invariant

end
-- ==== Proof.KernelValue.lean ====
/-
  The kernel's result array after the run is the specification function of its three arguments.

  Only the last reduction step of each output block writes the block back. What it writes, at block element
  (a, b), is the specification's value at the element's result row and column (the invariant's last clause),
  and the block's element (a, b) sits at exactly that row and column of the result: block index × 1024 + the
  coordinate inside the block, on both axes. So each written block is the block of ONE whole-array function,
  the specification of the three argument arrays. Every index (i₀, i₁) of the result lies in a written block,
  the one of row-block i₀ / 1024 and column-block i₁ / 1024 at its last reduction step, so the whole array
  ends holding that function.
-/
import proofs.«177124_j48679159333253_1_alg».proof.Proof.Gen.KernelIdeal.Value
import proofs.«177124_j48679159333253_1_alg».proof.Proof.Invariant

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.EarlyExit
open Cert.KernelIdeal.Blocks (rowOf colOf lt256)

variable (m : (ℓ : Loc nD τ sig) → Buf (Elt Ideal) ℓ) (ρ : Dev nD → PrngReg)

/-- The specification of core `c`'s three argument arrays, as contents of its result array. -/
abbrev resultArr (c : Dev nD) : Buf (Elt Ideal) ((c : Thread nD τ).loc main_v1) :=
  result (m ((c : Thread nD τ).loc main_arg0)) (m ((c : Thread nD τ).loc main_arg1)) (m ((c : Thread nD τ).loc main_arg2))

/-- At a last reduction step, the output block's element `j` is the specification at the place of the result where
    the block puts `j`. -/
theorem block_elem (c : Dev nD) (t : Fin cfg0.N) (h3 : t.val % 4 = 3) (j : S1024x1024.Idx) :
    (outsAt0 m c t.val t.isLt).1 j = resultArr m c (((cfg0.win 3).blk t).view.emb j) := by
  obtain ⟨a, b, rfl⟩ : ∃ (a b : Fin 1024), j = ix2 a b := ⟨j 0, j 1, eq_ix2 j⟩
  rw [Invariant.out_last m c t h3 a b, Blocks.xarr_eq, Blocks.warr_eq]
  have e0 : (((cfg0.win 3).blk t).view.emb (ix2 a b)) 0 = rowOf t a := Fin.ext (by
    show win0_3.index t 0 * 1024 + 1 * a.val = t.val / 64 * 1024 + a.val
    rw [(Blocks.index_facts t).2.2.2.2.2.2.1]; omega)
  have e1 : (((cfg0.win 3).blk t).view.emb (ix2 a b)) 1 = colOf t b := Fin.ext (by
    show win0_3.index t 1 * 1024 + 1 * b.val = t.val / 4 % 16 * 1024 + b.val
    rw [(Blocks.index_facts t).2.2.2.2.2.2.2]; omega)
  show _ = resultAt _ _ _ ((((cfg0.win 3).blk t).view.emb (ix2 a b)) 0) ((((cfg0.win 3).blk t).view.emb (ix2 a b)) 1)
  rw [e0, e1]

/-- What a writing point writes back is its block of the specification. -/
theorem flushed_eq (c : Dev nD) (t : Fin cfg0.N) (hf : (cfg0.win 3).flush t = true) :
    (dats m 0 c).flushed 3 t = ((cfg0.win 3).blk t).view.read (Elt Ideal) (resultArr m c) := by
  have h3 : t.val % 4 = 3 := (flush0_3 t).mp hf
  rw [Value.flushed3]
  funext j
  exact block_elem m c t h3 j

/-- An index of the result is in point `t`'s block iff each coordinate is in the block's range on its axis. -/
theorem mem_blk (t : Fin cfg0.N) (i : S4096x16384.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result is in the block some point writes back. -/
theorem cover (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  have hn : ((i 0).val / 1024 * 16 + (i 1).val / 1024) * 4 + 3 < cfg0.N := by
    rw [show cfg0.N = 256 from N_0]; omega
  refine ⟨⟨((i 0).val / 1024 * 16 + (i 1).val / 1024) * 4 + 3, hn⟩, (flush0_3 _).mpr (by
    show (((i 0).val / 1024 * 16 + (i 1).val / 1024) * 4 + 3) % 4 = 3; omega), ?_⟩
  rw [mem_blk]
  obtain ⟨-, -, -, -, -, -, e6, e7⟩ := Blocks.index_facts (⟨((i 0).val / 1024 * 16 + (i 1).val / 1024) * 4 + 3, hn⟩ : Fin cfg0.N)
  intro a
  match a with
  | ⟨0, _⟩ =>
    show win0_3.index _ 0 * 1024 ≤ (i 0).val ∧ (i 0).val < win0_3.index _ 0 * 1024 + 1024
    rw [e6]
    show (((i 0).val / 1024 * 16 + (i 1).val / 1024) * 4 + 3) / 64 * 1024 ≤ (i 0).val ∧ (i 0).val < (((i 0).val / 1024 * 16 + (i 1).val / 1024) * 4 + 3) / 64 * 1024 + 1024
    omega
  | ⟨1, _⟩ =>
    show win0_3.index _ 1 * 1024 ≤ (i 1).val ∧ (i 1).val < win0_3.index _ 1 * 1024 + 1024
    rw [e7]
    show (((i 0).val / 1024 * 16 + (i 1).val / 1024) * 4 + 3) / 4 % 16 * 1024 ≤ (i 1).val ∧ (i 1).val < (((i 0).val / 1024 * 16 + (i 1).val / 1024) * 4 + 3) / 4 % 16 * 1024 + 1024
    omega

/-- The result array after the run. -/
theorem final (c : Dev nD) : (dats m 0 c).arrAt 3 cfg0.N = resultArr m c :=
  (dats m 0 c).arrAt_eq_of_cover 3 (resultArr m c) (fun t hf => flushed_eq m c t hf) cover

/-- The kernel's run: it terminates with the result array at the specification of the arguments, the arguments
    unchanged. -/
theorem run : θ_run defs (onTc (τ := τ) (main (F := Ideal))) ⟨m, fun _ => 0, ρ⟩ fun r => ∀ c : Dev nD,
      r.2.mem ((c : Thread nD τ).loc main_v1) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference's result, index by index, is the specification function.

  At an output index (p, q) the reference forms three finite sums of extended reals:
    * over the first 32 reduction columns, the products x(p, k) · w(q, k): the specification's partialSum 32;
    * over the same 32 columns, the products of the squared entries (x(p, k) · x(p, k)) · (w(q, k) · w(q, k)):
      the specification's sqPartialSum 32;
    * over the remaining 4064 columns, the products x(p, 32 + k) · w(q, 32 + k): the sum of the 4064 products
      that follow the first 32.
  Each operand of such a sum is a slice of an input array, and a slice read at (r, k) is the array read at
  (r, k) for the head slice and at (r, 32 + k) for the tail slice; so each summand is literally the
  specification's k-th (or (32 + k)-th) product. A sum indexed by the 32 (or 4064) positions of the slice is
  the sum over the naturals below 32 (or 4064). The whole contraction the reference adds up, head sum plus
  tail sum, is therefore the sum of the first 32 + 4064 = 4096 products (the first n + m products are the
  first n and then the next m). The bias reaches the output through two broadcasts that keep the column
  coordinate, so at (p, q) it is b(q).

  Everything else the reference does is pointwise on these numbers, with the same literals and the same
  operations in the same order as the specification's pointwise rule, so after the sums are named the two
  sides are one term.
-/
import proofs.«177124_j48679159333253_1_alg».proof.Proof.Gen.ReferenceIdeal.Read
import proofs.«177124_j48679159333253_1_alg».proof.Proof.Spec
import Idealize.ShloMosaic.PureOps.Ideal
import Idealize.ShloMosaic.Lib.ValueIdx

noncomputable section

open scoped BigOperators
open Idealize.ShloMosaic Idealize.ShloMosaic.ValueIdx

namespace Cert.ReferenceIdeal.RefValue

open Cert.EarlyExit

/-! ## Where the slices read the input arrays -/

/-- Column k of the head slice of x, in output row p, is x(p, k). -/
theorem head_x (p : Fin 4096) (q : Fin 16384) (k : Fin 32) (h : k.val < 4096) :
    Read.idx_main_v0 (Read.lidx_main_v2 (ix2 p q) k) = ix2 p ⟨k.val, h⟩ := by
  funext a; match a with | ⟨0, _⟩ => rfl | ⟨1, _⟩ => rfl

/-- Column k of the head slice of w, in output column q, is w(q, k). -/
theorem head_w (p : Fin 4096) (q : Fin 16384) (k : Fin 32) (h : k.val < 4096) :
    Read.idx_main_v1 (Read.ridx_main_v2 (ix2 p q) k) = ix2 q ⟨k.val, h⟩ := by
  funext a; match a with | ⟨0, _⟩ => rfl | ⟨1, _⟩ => rfl

/-- The same for the contraction of the squared entries. -/
theorem head_x_sq (p : Fin 4096) (q : Fin 16384) (k : Fin 32) (h : k.val < 4096) :
    Read.idx_main_v0 (Read.lidx_main_v5 (ix2 p q) k) = ix2 p ⟨k.val, h⟩ := by
  funext a; match a with | ⟨0, _⟩ => rfl | ⟨1, _⟩ => rfl

theorem head_w_sq (p : Fin 4096) (q : Fin 16384) (k : Fin 32) (h : k.val < 4096) :
    Read.idx_main_v1 (Read.ridx_main_v5 (ix2 p q) k) = ix2 q ⟨k.val, h⟩ := by
  funext a; match a with | ⟨0, _⟩ => rfl | ⟨1, _⟩ => rfl

/-- Column k of the tail slice of x, in output row p, is x(p, 32 + k). -/
theorem tail_x (p : Fin 4096) (q : Fin 16384) (k : Fin 4064) (h : 32 + k.val < 4096) :
    Read.idx_main_v26 (Read.lidx_main_v28 (ix2 p q) k) = ix2 p ⟨32 + k.val, h⟩ := by
  funext a; match a with | ⟨0, _⟩ => rfl | ⟨1, _⟩ => rfl

/-- Column k of the tail slice of w, in output column q, is w(q, 32 + k). -/
theorem tail_w (p : Fin 4096) (q : Fin 16384) (k : Fin 4064) (h : 32 + k.val < 4096) :
    Read.idx_main_v27 (Read.ridx_main_v28 (ix2 p q) k) = ix2 q ⟨32 + k.val, h⟩ := by
  funext a; match a with | ⟨0, _⟩ => rfl | ⟨1, _⟩ => rfl

/-- The two broadcasts of the bias keep the column coordinate. -/
theorem bias_idx (p : Fin 4096) (q : Fin 16384) :
    Read.idx_main_v30 (Read.idx_main_v31 (ix2 p q)) = ix1 q := by
  funext a; match a with | ⟨0, _⟩ => rfl

/-! ## The three sums and the bias, at an output index -/

section
variable (x : (⟨Cert.ReferenceIdeal.S4096x4096, .f32⟩ : BufTy).Contents (Elt Ideal))
  (w : (⟨Cert.ReferenceIdeal.S16384x4096, .f32⟩ : BufTy).Contents (Elt Ideal))
  (b : (⟨Cert.ReferenceIdeal.S16384, .f32⟩ : BufTy).Contents (Elt Ideal))

/-- The contraction over the head slices is the sum of the first 32 products. -/
theorem head_sum (p : Fin 4096) (q : Fin 16384) :
    Read.val_main_v2 (F := Ideal) x w (ix2 p q) = partialSum x w p q 32 := by
  rw [Read.val_main_v2_apply]
  unfold partialSum
  rw [← Fin.sum_univ_eq_sum_range (fun k => prodAt x w p q k) 32]
  refine Finset.sum_congr rfl fun k _ => ?_
  have h : k.val < 4096 := lt_trans k.isLt (by norm_num)
  rw [Read.val_main_v0_apply, Read.val_main_v1_apply, head_x p q k h, head_w p q k h]
  exact (prodAt_of_lt x w p q k.val h).symm

/-- The contraction of the squared head slices is the sum of the first 32 products of squares. -/
theorem head_sq_sum (p : Fin 4096) (q : Fin 16384) :
    Read.val_main_v5 (F := Ideal) x w (ix2 p q) = sqPartialSum x w p q 32 := by
  rw [Read.val_main_v5_apply]
  unfold sqPartialSum
  rw [← Fin.sum_univ_eq_sum_range (fun k => sqProdAt x w p q k) 32]
  refine Finset.sum_congr rfl fun k _ => ?_
  have h : k.val < 4096 := lt_trans k.isLt (by norm_num)
  rw [Read.val_main_v3_apply, Read.val_main_v4_apply, Read.val_main_v0_apply, Read.val_main_v1_apply,
    head_x_sq p q k h, head_w_sq p q k h]
  exact (sqProdAt_of_lt x w p q k.val h).symm

/-- The contraction over the tail slices is the sum of the 4064 products that follow the first 32. -/
theorem tail_sum (p : Fin 4096) (q : Fin 16384) :
    Read.val_main_v28 (F := Ideal) x w (ix2 p q) = ∑ k ∈ Finset.range 4064, prodAt x w p q (32 + k) := by
  rw [Read.val_main_v28_apply]
  refine sum_fin_eq_sum_range_shift 32 _ (prodAt x w p q) fun k => ?_
  have h : 32 + k.val < 4096 := by have := k.isLt; omega
  rw [Read.val_main_v26_apply, Read.val_main_v27_apply, tail_x p q k h, tail_w p q k h]
  exact (prodAt_of_lt x w p q (32 + k.val) h).symm

/-- Head sum plus tail sum is the whole contraction: the first 32 + 4064 = 4096 products. -/
theorem whole_sum (p : Fin 4096) (q : Fin 16384) :
    Read.val_main_v29 (F := Ideal) x w (ix2 p q) = partialSum x w p q 4096 := by
  rw [Read.val_main_v29_apply, head_sum, tail_sum, Ideal.addf_def]
  exact (partialSum_add x w p q 32 4064).symm

/-- The broadcast bias at (p, q) is b(q). -/
theorem bias_at (p : Fin 4096) (q : Fin 16384) :
    Read.val_main_v31 (F := Ideal) b (ix2 p q) = b (ix1 q) := by
  rw [Read.val_main_v31_apply, Read.val_main_v30_apply, bias_idx]

end

/-! ## The result -/

/-- The reference's result is the specification function: at (p, q) its pointwise tail is the specification's
    rule applied to the sum of the first 32 products, the sum of the first 32 products of squares, and the whole
    contraction plus the bias. -/
theorem result_eq (x : (⟨Cert.ReferenceIdeal.S4096x4096, .f32⟩ : BufTy).Contents (Elt Ideal)) (w : (⟨Cert.ReferenceIdeal.S16384x4096, .f32⟩ : BufTy).Contents (Elt Ideal)) (b : (⟨Cert.ReferenceIdeal.S16384, .f32⟩ : BufTy).Contents (Elt Ideal)) :
    Cert.ReferenceIdeal.Read.val_main_v33 (F := Ideal) x w b = Cert.EarlyExit.result x w b := by
  funext i
  obtain ⟨p, q, rfl⟩ : ∃ p q, i = ix2 p q := ⟨i 0, i 1, eq_ix2 i⟩
  show _ = gate (partialSum x w p q 32) (sqPartialSum x w p q 32) (partialSum x w p q 4096 + b (ix1 q))
  rw [Read.val_main_v33_apply, Read.val_main_v25_apply, Read.val_main_v32_apply, Read.val_main_v23_apply,
    Read.val_main_v22_apply, Read.val_main_v21_apply, Read.val_main_v19_apply, Read.val_main_v17_apply,
    Read.val_main_v15_apply, Read.val_main_v14_apply, Read.val_main_v13_apply, Read.val_main_v11_apply,
    Read.val_main_v9_apply, Read.val_main_v7_apply,
    Read.val_main_v6_apply, Read.val_main_v8_apply, Read.val_main_v10_apply, Read.val_main_v12_apply,
    Read.val_main_v16_apply, Read.val_main_v18_apply, Read.val_main_v20_apply, Read.val_main_v24_apply,
    Read.val_main_call0_v0_apply,
    whole_sum, bias_at, head_sum, head_sq_sum]
  rfl

end Cert.ReferenceIdeal.RefValue

end
-- ==== Proof.lean ====
/-
  A blocked matrix product with a statistical early exit, against its jnp reference: both compute, at the
  ideal instance (floats are extended reals, every operation exact), ONE function of the three inputs.

  Inputs x : [4096, 4096], w : [16384, 4096], bias : [16384]; output [4096, 16384]. At (p, q) let s and s₂ be
  the sums over the first 32 reduction columns of x(p,k)·w(q,k) and of x(p,k)²·w(q,k)². With mean = s/32 and
  variance = s₂/32 − mean², the output is 0 when mean / √(max(variance/32, ε)) is below a fixed bound, and
  otherwise the whole contraction Σ_k x(p,k)·w(q,k) over all 4096 columns plus bias(q).

  The reference forms the whole contraction as the 32-column sum plus the sum over the other 4064 columns.
  The kernel walks a 4 × 16 × 4 grid of [1024, 1024] blocks: for each output block it zeroes an accumulator
  at the first of four reduction steps, computes s and s₂ there from the leading 32 columns of the first
  blocks, adds each step's 1024 products into the accumulator (the operands cast to bfloat16 first, which
  changes nothing at the ideal instance), and at the last step writes the gated accumulator plus bias.
  The two groupings of the 4096 products, 32 + 4064 and 1024 + 1024 + 1024 + 1024, give the same extended
  real because addition of extended reals is commutative and associative, infinities included; so the
  finiteness of the inputs is never used. The pointwise test is the same operations on the same literals
  in the same order on both sides.

  Modules: Spec (the function and the splitting of the sum), Pieces (what one body run leaves, case by
  case), Payloads (the body's stored values at an element), Blocks (where a point's blocks sit in the
  arrays), Invariant (the carried blocks after every point, by induction; what the last step writes),
  KernelValue (the result array after the run), RefValue (the reference's result is the same function).
  The frames of the two kernel programs and the reference's run are the generated ones; the ideal pass
  rewrote nothing, so `preserves` is trivial.
-/
import proofs.«177124_j48679159333253_1_alg».proof.Defs
import proofs.«177124_j48679159333253_1_alg».proof.Proof.Gen.Kernel
import proofs.«177124_j48679159333253_1_alg».proof.Proof.Gen.Kernel.Skeleton
import proofs.«177124_j48679159333253_1_alg».proof.Proof.Gen.Kernel.Launch
import proofs.«177124_j48679159333253_1_alg».proof.Proof.Gen.Kernel.Points
import proofs.«177124_j48679159333253_1_alg».proof.Proof.Gen.Kernel.Frame
import proofs.«177124_j48679159333253_1_alg».proof.Proof.Gen.KernelIdeal
import proofs.«177124_j48679159333253_1_alg».proof.Proof.Gen.KernelIdeal.Skeleton
import proofs.«177124_j48679159333253_1_alg».proof.Proof.Gen.KernelIdeal.Launch
import proofs.«177124_j48679159333253_1_alg».proof.Proof.Gen.KernelIdeal.Points
import proofs.«177124_j48679159333253_1_alg».proof.Proof.Gen.KernelIdeal.Frame
import proofs.«177124_j48679159333253_1_alg».proof.Proof.Gen.ReferenceIdeal
import proofs.«177124_j48679159333253_1_alg».proof.Proof.Gen.KernelIdeal.Value
import proofs.«177124_j48679159333253_1_alg».proof.Proof.Gen.ReferenceIdeal.Run
import proofs.«177124_j48679159333253_1_alg».proof.Proof.Gen.ReferenceIdeal.Read
import proofs.«177124_j48679159333253_1_alg».proof.Proof.Gen.Pre_finite_inputs
import proofs.«177124_j48679159333253_1_alg».proof.Proof.KernelValue
import proofs.«177124_j48679159333253_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at the specification of the
    arguments: the kernel by the induction over its grid, the reference by reading its operations at an index. -/
theorem algebraic : Cert.algebraic_KernelIdeal_ReferenceIdeal := by
  intro m ρ m' ρ' _ hagree
  refine ⟨fun c => Cert.KernelIdeal.KernelValue.resultArr m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
